-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S8192x64 : S_.BroadcastsInDim S8192x64 (![] : Fin 0 → Fin S8192x64.rank)
  reducesTo_S8192x64_S_d0_1 : S8192x64.ReducesTo [0, 1] S_
  bcast_S_S8192x10 : S_.BroadcastsInDim S8192x10 (![] : Fin 0 → Fin S8192x10.rank)
  reducesTo_S8192x10_S_d0_1 : S8192x10.ReducesTo [0, 1] S_

variable [Facts]

def fn_part1 {F : FTy → Type} [FloatOps F] (main_v13 : IVec S_ 1) (main_v16 : IVec S8192x10 1) : IVec S_ 1 :=
  let main_c_5 : IVec S_ 1 := constantI S_ 1 1#1
  let main_v17 : IVec S_ 1 := (fun x v => Host.reduce IntOp.andi x v reducesTo_S8192x10_S_d0_1 h_S_) main_v16 main_c_5
  let main_v18 : IVec S_ 1 := andi main_v13 main_v17
  main_v18

def fn {F : FTy → Type} [FloatOps F] (main_arg0 : FVec F S4096x64 .f32) (main_arg1 : FVec F S2048x64 .f32) (main_arg2 : FVec F S8192x64 .f32) (main_arg3 : FVec F S8192x10 .f32) (main_arg4 : IVec S2048 32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x10 .f32 := Host.absf main_arg3
  let main_cst_4 : FVec F S_ .f32 := constant S_ .f32 0x7F800000#32
  let main_v15 : FVec F S8192x10 .f32 := broadcastInDim S8192x10 ![] bcast_S_S8192x10 main_cst_4
  let main_v16 : IVec S8192x10 1 := cmpf .olt main_v14 main_v15
  fn_part1 (F := F) main_v13 main_v16
-- ==== Kernel.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S10240x64 : Shape := ⟨2, ![10240, 64]⟩
abbrev S2048x1 : Shape := ⟨2, ![2048, 1]⟩
abbrev S1x10 : Shape := ⟨2, ![1, 10]⟩
abbrev S2048x10 : Shape := ⟨2, ![2048, 10]⟩
abbrev S_ : Shape := ⟨0, ![]⟩
abbrev S8192 : Shape := ⟨1, ![8192]⟩
abbrev S8192x1 : Shape := ⟨2, ![8192, 1]⟩
abbrev S10240x10 : Shape := ⟨2, ![10240, 10]⟩
abbrev S4096x10 : Shape := ⟨2, ![4096, 10]⟩
abbrev S1024x64 : Shape := ⟨2, ![1024, 64]⟩
abbrev S1280x64 : Shape := ⟨2, ![1280, 64]⟩
abbrev S1280x10 : Shape := ⟨2, ![1280, 10]⟩
abbrev S1024x10 : Shape := ⟨2, ![1024, 10]⟩
abbrev S1024x1 : Shape := ⟨2, ![1024, 1]⟩
abbrev S1024 : Shape := ⟨1, ![1024]⟩
abbrev S1280 : Shape := ⟨1, ![1280]⟩
abbrev S1x1280 : Shape := ⟨2, ![1, 1280]⟩
abbrev S1024x1280 : Shape := ⟨2, ![1024, 1280]⟩

abbrev nBuf : Space → Nat
  | .hbm => 28
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S2048x64, .f32⟩
  | .hbm, ⟨2, _⟩ => ⟨S8192x64, .f32⟩
  | .hbm, ⟨3, _⟩ => ⟨S8192x10, .f32⟩
  | .hbm, ⟨4, _⟩ => ⟨S2048, .i32⟩
  | .hbm, ⟨5, _⟩ => ⟨S10240x64, .f32⟩
  | .hbm, ⟨6, _⟩ => ⟨S2048x1, .i32⟩
  | .hbm, ⟨7, _⟩ => ⟨S1x10, .i32⟩
  | .hbm, ⟨8, _⟩ => ⟨S2048x10, .i32⟩
  | .hbm, ⟨9, _⟩ => ⟨S2048x10, .i32⟩
  | .hbm, ⟨10, _⟩ => ⟨S2048x10, .i1⟩
  | .hbm, ⟨11, _⟩ => ⟨S2048x10, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x10, .f32⟩
  | .hbm, ⟨19, _⟩ => ⟨S8192x10, .f32⟩
  | .hbm, ⟨20, _⟩ => ⟨S8192x10, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x10, .f32⟩
  | .hbm, ⟨25, _⟩ => ⟨S8192x10, .f32⟩
  | .hbm, ⟨26, _⟩ => ⟨S10240x10, .f32⟩
  | .hbm, ⟨27, _⟩ => ⟨S4096x10, .f32⟩
  | .local _ .vmem, ⟨0, _⟩ => ⟨S1024x64, .f32⟩
  | .local _ .vmem, ⟨1, _⟩ => ⟨S1024x64, .f32⟩
  | .local _ .vmem, ⟨2, _⟩ => ⟨S1280x64, .f32⟩
  | .local _ .vmem, ⟨3, _⟩ => ⟨S1280x64, .f32⟩
  | .local _ .vmem, ⟨4, _⟩ => ⟨S1280x10, .f32⟩
  | .local _ .vmem, ⟨5, _⟩ => ⟨S1280x10, .f32⟩
  | .local _ .vmem, ⟨6, _⟩ => ⟨S1024x10, .f32⟩
  | .local _ .vmem, ⟨7, _⟩ => ⟨S1024x10, .f32⟩
  | .local _ .vmem, ⟨8, _⟩ => ⟨S1024x10, .f32⟩
  | .local _ .vmem, ⟨9, _⟩ => ⟨S1024x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S2048x64_S8192x64_S10240x64_d0 : Shape.Concatenates [S2048x64, S8192x64] S10240x64 0
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  bcast_S1x10_S2048x10_0_1 : S1x10.BroadcastsInDim S2048x10 (![0, 1] : Fin 2 → Fin S2048x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S2048x10_S8192x10_S10240x10_d0 : Shape.Concatenates [S2048x10, S8192x10] S10240x10 0
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  reduces_S1024x64_S1024 : S1024x64.Reduces [1] S1024
  shapeCasts_S1024_S1024x1 : S1024.ShapeCasts S1024x1
  reduces_S1280x64_S1280 : S1280x64.Reduces [1] S1280
  shapeCasts_S1280_S1x1280 : S1280.ShapeCasts S1x1280
  broadcasts_S1024x1_S1024x1280 : S1024x1.Broadcasts S1024x1280
  broadcasts_S1x1280_S1024x1280 : S1x1280.Broadcasts S1024x1280
  inb_S1280x10_S1280x10_0_0 : ∀ a, (![0, 0] : Fin 2 → Nat) a + S1280x10.size a ≤ S1280x10.size a
  h_S1280x10 : 0 < S1280x10.numel
  shapeCasts_S1280x10_S1280x10 : S1280x10.ShapeCasts S1280x10
  reduces_S1024x1280_S1024 : S1024x1280.Reduces [1] S1024
  broadcasts_S1024x1_S1024x10 : S1024x1.Broadcasts S1024x10
  dot_S1024x64_S1280x64_S1024x1280_1_1_0_0_n_n_wf : DotDims.WF S1024x64 S1280x64 S1024x1280 [1] [1] [0] [0] [] []
  dot_S1024x1280_S1280x10_S1024x10_1_0_0_1_n_n_wf : DotDims.WF S1024x1280 S1280x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x64.size a ≤ S10240x64.size a
  hwx0_1 : ∀ i : grid0.Coords, EltTy.bits .f32 = 32 ∨ (Rect.block (s := S10240x64) S1280x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x10.size a ≤ S10240x10.size a
  hwx0_2 : ∀ i : grid0.Coords, EltTy.bits .f32 = 32 ∨ (Rect.block (s := S10240x10) S1280x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S4096x10.size a
  hwx0_3 : ∀ i : grid0.Coords, EltTy.bits .f32 = 32 ∨ (Rect.block (s := S4096x10) S1024x10.size (cc0_transform_3 i) (hinb0_3 i)).WholeWords (EltTy.packing .f32)

variable [Facts₀]

def dot_S1024x64_S1280x64_S1024x1280_1_1_0_0_n_n : DotDims S1024x64 S1280x64 S1024x1280 where
  lhsContracting := [1]
  rhsContracting := [1]
  lhsNonContracting := [0]
  rhsNonContracting := [0]
  lhsBatch := []
  rhsBatch := []
  wf := dot_S1024x64_S1280x64_S1024x1280_1_1_0_0_n_n_wf
def dot_S1024x1280_S1280x10_S1024x10_1_0_0_1_n_n : DotDims S1024x1280 S1280x10 S1024x10 where
  lhsContracting := [1]
  rhsContracting := [0]
  lhsNonContracting := [0]
  rhsNonContracting := [1]
  lhsBatch := []
  rhsBatch := []
  wf := dot_S1024x1280_S1280x10_S1024x10_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1280x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x64 : Shape := ⟨2, ![4096, 64]⟩
abbrev S2048x64 : Shape := ⟨2, ![2048, 64]⟩
abbrev S8192x64 : Shape := ⟨2, ![8192, 64]⟩
abbrev S8192x10 : Shape := ⟨2, ![8192, 10]⟩
abbrev S2048 : Shape := ⟨1, ![2048]⟩
abbrev S10240x64 : Shape := ⟨2, ![10240, 64]⟩
abbrev S_ : Shape := ⟨0, ![]⟩
abbrev S4096 : Shape := ⟨1, ![4096]⟩
abbrev S4096x1 : Shape := ⟨2, ![4096, 1]⟩
abbrev S10240 : Shape := ⟨1, ![10240]⟩
abbrev S1x10240 : Shape := ⟨2, ![1, 10240]⟩
abbrev S64x10240 : Shape := ⟨2, ![64, 10240]⟩
abbrev S4096x10240 : Shape := ⟨2, ![4096, 10240]⟩
abbrev S2048x1 : Shape := ⟨2, ![2048, 1]⟩
abbrev S1x10 : Shape := ⟨2, ![1, 10]⟩
abbrev S2048x10 : Shape := ⟨2, ![2048, 10]⟩
abbrev S8192 : Shape := ⟨1, ![8192]⟩
abbrev S8192x1 : Shape := ⟨2, ![8192, 1]⟩
abbrev S10240x10 : Shape := ⟨2, ![10240, 10]⟩
abbrev S4096x10 : Shape := ⟨2, ![4096, 10]⟩

abbrev nBuf : Space → Nat
  | .hbm => 63
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2048x64, .f32⟩
  | .hbm, ⟨2, _⟩ => ⟨S8192x64, .f32⟩
  | .hbm, ⟨3, _⟩ => ⟨S8192x10, .f32⟩
  | .hbm, ⟨4, _⟩ => ⟨S2048, .i32⟩
  | .hbm, ⟨5, _⟩ => ⟨S10240x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S_, .f32⟩
  | .hbm, ⟨10, _⟩ => ⟨S10240x64, .f32⟩
  | .hbm, ⟨11, _⟩ => ⟨S10240x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S10240x64, .f32⟩
  | .hbm, ⟨17, _⟩ => ⟨S_, .f32⟩
  | .hbm, ⟨18, _⟩ => ⟨S10240, .f32⟩
  | .hbm, ⟨19, _⟩ => ⟨S1x10240, .f32⟩
  | .hbm, ⟨20, _⟩ => ⟨S64x10240, .f32⟩
  | .hbm, ⟨21, _⟩ => ⟨S4096x10240, .f32⟩
  | .hbm, ⟨22, _⟩ => ⟨S4096x10240, .f32⟩
  | .hbm, ⟨23, _⟩ => ⟨S4096x10240, .f32⟩
  | .hbm, ⟨24, _⟩ => ⟨S4096x10240, .f32⟩
  | .hbm, ⟨25, _⟩ => ⟨S_, .f32⟩
  | .hbm, ⟨26, _⟩ => ⟨S4096x10240, .f32⟩
  | .hbm, ⟨27, _⟩ => ⟨S4096x10240, .f32⟩
  | .hbm, ⟨28, _⟩ => ⟨S4096x10240, .f32⟩
  | .hbm, ⟨29, _⟩ => ⟨S_, .f32⟩
  | .hbm, ⟨30, _⟩ => ⟨S4096x10240, .f32⟩
  | .hbm, ⟨31, _⟩ => ⟨S4096x10240, .f32⟩
  | .hbm, ⟨32, _⟩ => ⟨S4096x10240, .f32⟩
  | .hbm, ⟨33, _⟩ => ⟨S_, .f32⟩
  | .hbm, ⟨34, _⟩ => ⟨S4096x10240, .f32⟩
  | .hbm, ⟨35, _⟩ => ⟨S4096x10240, .f32⟩
  | .hbm, ⟨36, _⟩ => ⟨S2048x1, .i32⟩
  | .hbm, ⟨37, _⟩ => ⟨S1x10, .i32⟩
  | .hbm, ⟨38, _⟩ => ⟨S2048x10, .i32⟩
  | .hbm, ⟨39, _⟩ => ⟨S2048x10, .i32⟩
  | .hbm, ⟨40, _⟩ => ⟨S2048x10, .i1⟩
  | .hbm, ⟨41, _⟩ => ⟨S2048x10, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x10, .f32⟩
  | .hbm, ⟨49, _⟩ => ⟨S8192x10, .f32⟩
  | .hbm, ⟨50, _⟩ => ⟨S8192x10, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x10, .f32⟩
  | .hbm, ⟨55, _⟩ => ⟨S8192x10, .f32⟩
  | .hbm, ⟨56, _⟩ => ⟨S10240x10, .f32⟩
  | .hbm, ⟨57, _⟩ => ⟨S4096x10, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x10, .f32⟩
  | .hbm, ⟨62, _⟩ => ⟨S4096x10, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  concatenates_S2048x64_S8192x64_S10240x64_d0 : Shape.Concatenates [S2048x64, S8192x64] S10240x64 0
  bcast_S_S4096x64 : S_.BroadcastsInDim S4096x64 (![] : Fin 0 → Fin S4096x64.rank)
  bcast_S_S10240x64 : S_.BroadcastsInDim S10240x64 (![] : Fin 0 → Fin S10240x64.rank)
  reducesTo_S4096x64_S4096_d1 : S4096x64.ReducesTo [1] S4096
  h_S_ : 0 < S_.numel
  bcast_S4096_S4096x1_0 : S4096.BroadcastsInDim S4096x1 (![0] : Fin 1 → Fin S4096x1.rank)
  reducesTo_S10240x64_S10240_d1 : S10240x64.ReducesTo [1] S10240
  bcast_S10240_S1x10240_1 : S10240.BroadcastsInDim S1x10240 (![1] : Fin 1 → Fin S1x10240.rank)
  transposes_S10240x64_S64x10240_1_0 : S10240x64.Transposes [1, 0] S64x10240
  bcast_S4096x1_S4096x10240_0_1 : S4096x1.BroadcastsInDim S4096x10240 (![0, 1] : Fin 2 → Fin S4096x10240.rank)
  bcast_S1x10240_S4096x10240_0_1 : S1x10240.BroadcastsInDim S4096x10240 (![0, 1] : Fin 2 → Fin S4096x10240.rank)
  bcast_S_S4096x10240 : S_.BroadcastsInDim S4096x10240 (![] : Fin 0 → Fin S4096x10240.rank)
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  bcast_S1x10_S2048x10_0_1 : S1x10.BroadcastsInDim S2048x10 (![0, 1] : Fin 2 → Fin S2048x10.rank)
  reducesTo_S8192x10_S8192_d1 : S8192x10.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S2048x10_S8192x10_S10240x10_d0 : Shape.Concatenates [S2048x10, S8192x10] S10240x10 0
  reducesTo_S4096x10240_S4096_d1 : S4096x10240.ReducesTo [1] S4096
  bcast_S4096x1_S4096x10_0_1 : S4096x1.BroadcastsInDim S4096x10 (![0, 1] : Fin 2 → Fin S4096x10.rank)
  dot_S4096x64_S64x10240_S4096x10240_1_0_0_1_n_n_wf : DotDims.WF S4096x64 S64x10240 S4096x10240 [1] [0] [0] [1] [] []
  dot_S4096x10240_S10240x10_S4096x10_1_0_0_1_n_n_wf : DotDims.WF S4096x10240 S10240x10 S4096x10 [1] [0] [0] [1] [] []

variable [Facts₀]

def dot_S4096x64_S64x10240_S4096x10240_1_0_0_1_n_n : DotDims S4096x64 S64x10240 S4096x10240 where
  lhsContracting := [1]
  rhsContracting := [0]
  lhsNonContracting := [0]
  rhsNonContracting := [1]
  lhsBatch := []
  rhsBatch := []
  wf := dot_S4096x64_S64x10240_S4096x10240_1_0_0_1_n_n_wf
def dot_S4096x10240_S10240x10_S4096x10_1_0_0_1_n_n : DotDims S4096x10240 S10240x10 S4096x10 where
  lhsContracting := [1]
  rhsContracting := [0]
  lhsNonContracting := [0]
  rhsNonContracting := [1]
  lhsBatch := []
  rhsBatch := []
  wf := dot_S4096x10240_S10240x10_S4096x10_1_0_0_1_n_n_wf

class Facts : Prop extends Facts₀ where

variable [Facts]
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.GaussAverage.lean ====
/-
  The mathematics of this certificate, with no program in sight.

  For a query row x_n (n < 4096) and key rows a_k (k < 10240) in R^64 the Gaussian weight is
      g(n, k) = exp(-1/2 * ((|x_n|^2 + |a_k|^2) - 2 <x_n, a_k>)),
  and for class scores P (10240 x 10) the weighted average is
      avg(n, c) = (sum_k g(n, k) P(k, c)) / (sum_k g(n, k)).
  One program multiplies every weight by a positive constant, the other divides every weight by another positive
  constant; each does so in the numerator and in the denominator alike, so the constant cancels and both compute
  avg. Cancelling needs the weights to be real numbers (hence the entries of x and a real), a positive real factor
  to be pulled out of a sum of extended reals (true of any such sum), and the sum of the weights to be non-zero (it is
  positive). Nothing is asked of P: its entries may be any extended reals.
  The first program also forms its two sums in 8 blocks of 1280 keys, adding block after block to an accumulator
  that starts at zero; the partial sums below say what the accumulators hold after each block.
-/
import Idealize.ShloMosaic.Lib.ValueIdx
import Idealize.ShloMosaic.PureOps.Ideal
import Idealize.ShloMosaic.PureOps.Ideal.Laws
import proofs.«142160_j3375844295427_1_alg».proof.Proof.LibRealValued

noncomputable section

open scoped BigOperators

namespace Cert.GaussAverage

open Idealize.ShloMosaic Idealize.ShloMosaic.ValueIdx Cert.RealValued

/-! ## The float constants the two programs spell, as the numbers they denote -/

/-- The word of `2.0`. -/
abbrev two : EReal := Ideal.ofBits .f32 0x40000000#32
/-- The word of `-0.5`. -/
abbrev mhalf : EReal := Ideal.ofBits .f32 0xBF000000#32
/-- The word of `1.0`. -/
abbrev one : EReal := Ideal.ofBits .f32 0x3F800000#32
/-- The factor one program multiplies each weight by. -/
abbrev cK : EReal := Ideal.ofBits .f32 0x3ECC422A#32
/-- The divisor the other program divides each weight by. -/
abbrev dR : EReal := Ideal.ofBits .f32 0x40206C99#32

theorem two_eq : two = ((2 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul]; norm_num

theorem one_eq : one = ((1 : ℝ) : EReal) := by
  simp [Ideal.ofBits, Ideal.ieee, -EReal.coe_mul]; norm_num

/-- The multiplier is the positive real 13386282 / 2^25. -/
theorem cK_pos : ∃ a : ℝ, 0 < a ∧ cK = (a : EReal) := by
  refine ⟨13386282 * (2 : ℝ) ^ (-25 : ℤ), by positivity, ?_⟩
  simp [Ideal.ofBits, Ideal.ieee, -EReal.coe_mul]

/-- The divisor is the positive real 10513561 / 2^22. -/
theorem dR_pos : ∃ a : ℝ, 0 < a ∧ dR = (a : EReal) := by
  refine ⟨10513561 * (2 : ℝ) ^ (-22 : ℤ), by positivity, ?_⟩
  simp [Ideal.ofBits, Ideal.ieee, -EReal.coe_mul]

/-- Dividing by the word of `1.0` changes nothing, at the infinities too. -/
theorem div_one (x : EReal) : Ideal.div x one = x := by
  rw [one_eq, Ideal.div_coe one_ne_zero]; simp

/-! ## Sums of extended reals -/

section Sums

variable {ι : Type*}

/-- A finite sum of coerced reals is the coerced sum. -/
theorem coe_sum (s : Finset ι) (g : ι → ℝ) : ∑ k ∈ s, ((g k : ℝ) : EReal) = ((∑ k ∈ s, g k : ℝ) : EReal) := by
  classical
  refine Finset.induction_on s (by simp) ?_
  intro b s hb ih
  rw [Finset.sum_insert hb, Finset.sum_insert hb, ih, EReal.coe_add]

/-- A non-negative real factor goes inside any finite sum of extended reals. -/
theorem mul_sum_nonneg (a : ℝ) (ha : 0 ≤ a) (s : Finset ι) (f : ι → EReal) :
    (a : EReal) * ∑ k ∈ s, f k = ∑ k ∈ s, (a : EReal) * f k := by
  classical
  refine Finset.induction_on s (by simp) ?_
  intro b s hb ih
  rw [Finset.sum_insert hb, Finset.sum_insert hb,
    EReal.left_distrib_of_nonneg_of_ne_top (by exact_mod_cast ha) (EReal.coe_ne_top a), ih]

/-- THE LAW. Real weights g with non-zero sum, scaled by one positive real a in the numerator and in the denominator:
    the quotient does not see a. The values p are any extended reals. -/
theorem ratio_scale [Fintype ι] (a : ℝ) (ha : 0 < a) (g : ι → ℝ) (hS : (∑ k, g k) ≠ 0) (p : ι → EReal) :
    Ideal.div (∑ k, ((g k : EReal) * (a : EReal)) * p k) (∑ k, (g k : EReal) * (a : EReal))
      = Ideal.div (∑ k, (g k : EReal) * p k) (∑ k, (g k : EReal)) := by
  have hnum : ∑ k, ((g k : EReal) * (a : EReal)) * p k = (a : EReal) * ∑ k, (g k : EReal) * p k := by
    rw [mul_sum_nonneg a ha.le]
    exact Finset.sum_congr rfl fun k _ => by rw [mul_comm (g k : EReal) (a : EReal), mul_assoc]
  have hden : ∑ k, (g k : EReal) * (a : EReal) = (((∑ k, g k) * a : ℝ) : EReal) := by
    rw [Finset.sum_mul, ← coe_sum]
    exact Finset.sum_congr rfl fun k _ => (EReal.coe_mul _ _).symm
  rw [hnum, hden, coe_sum, Ideal.div_coe (mul_ne_zero hS ha.ne'), Ideal.div_coe hS,
    mul_comm (a : EReal), mul_assoc, ← EReal.coe_mul]
  congr 2
  field_simp

end Sums

/-! ## The weights and the average -/

variable (X : (⟨2, ![4096, 64]⟩ : Shape).Idx → EReal) (A : (⟨2, ![10240, 64]⟩ : Shape).Idx → EReal)
  (P : (⟨2, ![10240, 10]⟩ : Shape).Idx → EReal)

/-- The squared distance of query row n and key row k, spelt as both programs spell it. -/
def sqdist (n : Fin 4096) (k : Fin 10240) : EReal :=
  ((∑ d : Fin 64, X (ix2 n d) * X (ix2 n d)) + ∑ d : Fin 64, A (ix2 k d) * A (ix2 k d))
    - two * ∑ d : Fin 64, X (ix2 n d) * A (ix2 k d)

/-- The Gaussian weight of key k for query n. -/
def gauss (n : Fin 4096) (k : Fin 10240) : EReal := Ideal.exp (mhalf * sqdist X A n k)

/-- The weighted average of column c of P for query n. -/
def avgAt (n : Fin 4096) (c : Fin 10) : EReal :=
  Ideal.div (∑ k : Fin 10240, gauss X A n k * P (ix2 k c)) (∑ k : Fin 10240, gauss X A n k)

/-- The result array both programs end with. -/
def avg : (⟨2, ![4096, 10]⟩ : Shape).Idx → EReal :=
  fun i => avgAt X A P ⟨(i 0).val, (i 0).isLt⟩ ⟨(i 1).val, (i 1).isLt⟩

theorem avg_ix2 (n : Fin 4096) (c : Fin 10) : avg X A P (ix2 n c) = avgAt X A P n c := rfl

variable {X A}

/-- With real entries the weight is a positive real. -/
theorem gauss_pos (hX : ∀ i, IsReal (X i)) (hA : ∀ i, IsReal (A i)) (n : Fin 4096) (k : Fin 10240) :
    ∃ r : ℝ, 0 < r ∧ gauss X A n k = (r : EReal) := by
  have h2 : IsReal two := ⟨_, two_eq⟩
  have hm : IsReal mhalf := ⟨_, mhalf_eq⟩
  have hs : IsReal (sqdist X A n k) :=
    ((IsReal.sum _ _ fun d _ => (hX _).mul (hX _)).add (IsReal.sum _ _ fun d _ => (hA _).mul (hA _))).sub
      (h2.mul (IsReal.sum _ _ fun d _ => (hX _).mul (hA _)))
  obtain ⟨r, hr⟩ := hm.mul hs
  exact ⟨Real.exp r, Real.exp_pos r, by unfold gauss; rw [hr]; rfl⟩

/-- The multiplied weights give the average. -/
theorem scaled_mul_eq (hX : ∀ i, IsReal (X i)) (hA : ∀ i, IsReal (A i)) (n : Fin 4096) (c : Fin 10) :
    Ideal.div (∑ k : Fin 10240, (gauss X A n k * cK) * P (ix2 k c)) (∑ k : Fin 10240, gauss X A n k * cK)
      = avgAt X A P n c := by
  choose g hg0 hg using gauss_pos hX hA n
  obtain ⟨a, ha, hca⟩ := cK_pos
  have hS : (∑ k, g k) ≠ 0 := (Finset.sum_pos (fun k _ => hg0 k) ⟨0, Finset.mem_univ _⟩).ne'
  unfold avgAt
  simp only [hg, hca]
  exact ratio_scale a ha g hS fun k => P (ix2 k c)

/-- The divided weights give the average. -/
theorem scaled_div_eq (hX : ∀ i, IsReal (X i)) (hA : ∀ i, IsReal (A i)) (n : Fin 4096) (c : Fin 10) :
    Ideal.div (∑ k : Fin 10240, Ideal.div (gauss X A n k) dR * P (ix2 k c)) (∑ k : Fin 10240, Ideal.div (gauss X A n k) dR)
      = avgAt X A P n c := by
  choose g hg0 hg using gauss_pos hX hA n
  obtain ⟨a, ha, hda⟩ := dR_pos
  have hS : (∑ k, g k) ≠ 0 := (Finset.sum_pos (fun k _ => hg0 k) ⟨0, Finset.mem_univ _⟩).ne'
  unfold avgAt
  simp only [hg, hda, Ideal.div_coe ha.ne']
  exact ratio_scale (1 / a) (by positivity) g hS fun k => P (ix2 k c)

/-! ## The keys in 8 blocks of 1280 -/

/-- Query row r of query block i. -/
def rowX (i : Fin 4) (r : Fin 1024) : Fin 4096 := ⟨1024 * i.val + r.val, by omega⟩
/-- Key row s of key block j. -/
def rowA (j : Fin 8) (s : Fin 1280) : Fin 10240 := ⟨1280 * j.val + s.val, by omega⟩

/-- A sum over all keys is the sum over the blocks of the sums inside each block. -/
theorem sum_rowA (f : Fin 10240 → EReal) : ∑ j : Fin 8, ∑ s : Fin 1280, f (rowA j s) = ∑ k : Fin 10240, f k := by
  rw [← Fintype.sum_prod_type']
  refine Fintype.sum_equiv (finProdFinEquiv (m := 8) (n := 1280)) _ _ fun x => ?_
  refine congrArg f (Fin.ext ?_)
  show 1280 * x.1.val + x.2.val = x.2.val + 1280 * x.1.val
  omega

/-- The sum of the first j of eight terms: what an accumulator that started at zero holds after j blocks. -/
def upTo (f : Fin 8 → EReal) (j : ℕ) : EReal := ∑ j' ∈ Finset.range j, if h : j' < 8 then f ⟨j', h⟩ else 0

theorem upTo_zero (f : Fin 8 → EReal) : upTo f 0 = 0 := by simp [upTo]

theorem upTo_succ (f : Fin 8 → EReal) (j : ℕ) (hj : j < 8) : upTo f (j + 1) = upTo f j + f ⟨j, hj⟩ := by
  unfold upTo
  rw [Finset.sum_range_succ, dif_pos hj]

theorem upTo_eight (f : Fin 8 → EReal) : upTo f 8 = ∑ j : Fin 8, f j := by
  unfold upTo
  rw [Finset.sum_range]
  exact Finset.sum_congr rfl fun j _ => by rw [dif_pos j.isLt]

variable (X A)

/-- Key block j's share of the numerator for query n and column c, with the multiplied weights. -/
def numBlk (n : Fin 4096) (c : Fin 10) (j : Fin 8) : EReal :=
  ∑ s : Fin 1280, (gauss X A n (rowA j s) * cK) * P (ix2 (rowA j s) c)

/-- Key block j's share of the denominator for query n, with the multiplied weights. -/
def denBlk (n : Fin 4096) (j : Fin 8) : EReal := ∑ s : Fin 1280, gauss X A n (rowA j s) * cK

variable {X A}

/-- After all eight blocks the two accumulators' quotient is the average. -/
theorem blocks_eq (hX : ∀ i, IsReal (X i)) (hA : ∀ i, IsReal (A i)) (n : Fin 4096) (c : Fin 10) :
    Ideal.div (upTo (numBlk X A P n c) 8) (upTo (denBlk X A n) 8) = avgAt X A P n c := by
  rw [upTo_eight, upTo_eight]
  unfold numBlk denBlk
  rw [sum_rowA fun k => (gauss X A n k * cK) * P (ix2 k c), sum_rowA fun k => gauss X A n k * cK]
  exact scaled_mul_eq P hX hA n c

end Cert.GaussAverage

end
-- ==== Proof.RefAverage.lean ====
/-
  The reference computes the weighted average.

  Read one operation at a time, entry (n, k) of the reference's weight matrix is the Gaussian weight of key k for query n
  divided by the reference's constant (its divisions of both point arrays by 1 change nothing, and its sums start from a
  zero that adds nothing); its result at (n, c) is the sum over k of these weights times the scores, divided by the sum
  over k of the weights. With real points that is the average.
-/
import proofs.«142160_j3375844295427_1_alg».proof.Proof.RefRead
import proofs.«142160_j3375844295427_1_alg».proof.Proof.GaussAverage

noncomputable section

open scoped BigOperators

namespace Cert.RefAverage

open Cert.ReferenceIdeal Cert.ReferenceIdeal.PRead Cert.GaussAverage Cert.RealValued
open Idealize.ShloMosaic Idealize.ShloMosaic.ValueIdx

variable (x0 : (⟨S4096x64, .f32⟩ : BufTy).Contents (Elt Ideal)) (x1 : (⟨S2048x64, .f32⟩ : BufTy).Contents (Elt Ideal))
  (x2 : (⟨S8192x64, .f32⟩ : BufTy).Contents (Elt Ideal)) (x3 : (⟨S8192x10, .f32⟩ : BufTy).Contents (Elt Ideal))
  (x4 : (⟨S2048, .i32⟩ : BufTy).Contents (Elt Ideal))

theorem div_one_word (x : EReal) : Ideal.div x (Ideal.ofBits .f32 0x3F800000#32) = x := div_one x

/-- The reference's weight of key k for query n: the Gaussian weight over the reference's divisor. -/
theorem weight_apply (n : Fin 4096) (k : Fin 10240) :
    val_main_v23 (F := Ideal) x0 x1 x2 (ix2 n k) = Ideal.div (gauss x0 (val_main_v0 (F := Ideal) x1 x2) n k) dR := by
  have e1 : ∀ d : Fin 64, idx_main_v6 (idx_main_v7 (idx_main_v13 (ix2 n k))) d = ix2 n d := fun d => funext fun a => by match a with | ⟨0, _⟩ => rfl | ⟨1, _⟩ => rfl
  have e2 : ∀ d : Fin 64, idx_main_v9 (idx_main_v10 (idx_main_v14 (ix2 n k))) d = ix2 k d := fun d => funext fun a => by match a with | ⟨0, _⟩ => rfl | ⟨1, _⟩ => rfl
  have e3 : ∀ d : Fin 64, lidx_main_v12 (ix2 n k) d = ix2 n d := fun d => funext fun a => by match a with | ⟨0, _⟩ => rfl | ⟨1, _⟩ => rfl
  have e4 : ∀ d : Fin 64, idx_main_v11 (ridx_main_v12 (ix2 n k) d) = ix2 k d := fun d => funext fun a => by match a with | ⟨0, _⟩ => rfl | ⟨1, _⟩ => rfl
  rw [val_main_v23_apply, val_main_v21_apply, val_main_v20_apply, val_main_v18_apply, val_main_v15_apply, val_main_v17_apply,
    val_main_v13_apply, val_main_v7_apply, val_main_v6_apply, val_main_v14_apply, val_main_v10_apply, val_main_v9_apply,
    val_main_v12_apply, val_main_v22_apply, val_main_v19_apply, val_main_v16_apply, val_main_cst_5_apply, val_main_cst_4_apply,
    val_main_cst_3_apply, val_main_cst_1_apply, val_main_cst_2_apply]
  simp only [val_main_v5_apply, val_main_v8_apply, val_main_v2_apply, val_main_v4_apply, val_main_v11_apply, val_main_v1_apply,
    val_main_v3_apply, val_main_cst_apply, val_main_cst_0_apply, e1, e2, e3, e4, Ideal.hostDivf_def, Ideal.mulf_def, Ideal.addf_def,
    Ideal.subf_def, Ideal.hostUnary_exp_def, Ideal.ofBits_def, div_one_word, Ideal.ofBits_zero_f32, zero_add]
  rfl

/-- THE REFERENCE'S RESULT is the weighted average of the scores, when the points are real. -/
theorem ref_eq (hX : ∀ i, IsReal (x0 i)) (hA : ∀ i, IsReal (val_main_v0 (F := Ideal) x1 x2 i)) :
    val_main_v41 (F := Ideal) x0 x1 x2 x3 x4 = avg x0 (val_main_v0 (F := Ideal) x1 x2) (val_main_v36 (F := Ideal) x3 x4) := by
  funext i
  obtain ⟨n, c, rfl⟩ : ∃ (n : Fin 4096) (c : Fin 10), i = ix2 n c := ⟨i 0, i 1, eq_ix2 i⟩
  have e5 : ∀ k : Fin 10240, lidx_main_v37 (ix2 n c) k = ix2 n k := fun k => funext fun a => by match a with | ⟨0, _⟩ => rfl | ⟨1, _⟩ => rfl
  have e6 : ∀ k : Fin 10240, ridx_main_v37 (ix2 n c) k = ix2 k c := fun k => funext fun a => by match a with | ⟨0, _⟩ => rfl | ⟨1, _⟩ => rfl
  have e7 : ∀ k : Fin 10240, idx_main_v38 (idx_main_v39 (idx_main_v40 (ix2 n c))) k = ix2 n k := fun k => funext fun a => by match a with | ⟨0, _⟩ => rfl | ⟨1, _⟩ => rfl
  rw [avg_ix2, ← scaled_div_eq (val_main_v36 (F := Ideal) x3 x4) hX hA n c, val_main_v41_apply, val_main_v37_apply,
    val_main_v40_apply, val_main_v39_apply, val_main_v38_apply, val_main_cst_9_apply]
  simp only [e5, e6, e7, weight_apply, Ideal.hostDivf_def, Ideal.ofBits_def, Ideal.ofBits_zero_f32, zero_add]

end Cert.RefAverage

end
-- ==== Proof.FiniteInputs.lean ====
/-
  What the precondition gives: every entry of the three arrays of points is a real number.

  The precondition is the conjunction of four tests "every entry x has max(x, -x) below +inf", one per float argument. At
  the exact instance an entry is an extended real, and max(x, -x) < +inf rules out both infinities, so x is real. The
  fourth test (the class scores) is not needed by this certificate.
-/
import proofs.«142160_j3375844295427_1_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.Pipeline.Value
import proofs.«142160_j3375844295427_1_alg».proof.Proof.LibRealValued

noncomputable section

namespace Cert.FiniteInputs

open Idealize.ShloMosaic Idealize.ShloMosaic.ValueIdx Cert.RealValued Cert.Pre_finite_inputs

/-- The word of `+inf` denotes the top element. -/
theorem inf_word : Ideal.ofBits .f32 0x7F800000#32 = ⊤ := by
  simp [Ideal.ofBits, Ideal.ieee]

/-- An extended real whose absolute value is below +inf is a real number. -/
theorem real_of_abs_lt_inf (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

instance : Subsingleton S_.Idx := ⟨fun a b => funext fun d => d.elim0⟩

/-- One conjunct: if "every entry is below +inf in absolute value" evaluates to true, every entry is real. -/
theorem entries_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : IsReal (x i) := by
  have h1 := Host.reduce_andi_all _ _ hr hu ix0 e i
  have hb' : broadcastInDim s ![] hb (constant S_ .f32 0x7F800000#32 : FVec Ideal S_ .f32) i
      = Ideal.ofBits .f32 0x7F800000#32 :=
    broadcastInDim_apply _ hb _ i ix0 (fun a => a.elim0)
  refine real_of_abs_lt_inf (x i) ?_
  rw [← hb']
  exact h1

variable [Cert.Pre_finite_inputs.Facts]

open Cert.Pre_finite_inputs.Facts

/-- The precondition, decoded: the entries of the first three arguments are real numbers. -/
theorem reals_of_pre (a0 : FVec Ideal S4096x64 .f32) (a1 : FVec Ideal S2048x64 .f32) (a2 : FVec Ideal S8192x64 .f32)
    (a3 : FVec Ideal S8192x10 .f32) (a4 : IVec S2048 32)
    (h : fn (F := Ideal) a0 a1 a2 a3 a4 = fun _ => 1#1) :
    (∀ i, IsReal (a0 i)) ∧ (∀ i, IsReal (a1 i)) ∧ (∀ i, IsReal (a2 i)) := by
  have h0 := congrFun h ix0
  dsimp only [fn, fn_part1] at h0
  obtain ⟨h123, _⟩ := IntOp.andi_eq_one.mp h0
  obtain ⟨h12, e3⟩ := IntOp.andi_eq_one.mp h123
  obtain ⟨e1, e2⟩ := IntOp.andi_eq_one.mp h12
  exact ⟨entries_real a0 _ _ _ e1, entries_real a1 _ _ _ e2, entries_real a2 _ _ _ e3⟩

end Cert.FiniteInputs

end
-- ==== Proof.ConcatReal.lean ====
/-
  Stacking two arrays of real numbers on top of each other gives an array of real numbers: every row of the result is a
  row of one of the two.
-/
import Idealize.ShloMosaic.Lib.Pipeline.Value
import Idealize.ShloMosaic.Lib.ValueIdx
import proofs.«142160_j3375844295427_1_alg».proof.Proof.LibRealValued

noncomputable section

namespace Cert.ConcatReal

open Idealize.ShloMosaic Idealize.ShloMosaic.ValueIdx Cert.RealValued

/-- The 2048 labelled points stacked on the 8192 unlabelled ones: every entry is an entry of one of the two arrays. -/
theorem concat_real (x1 : (⟨2, ![2048, 64]⟩ : Shape).Idx → EReal) (x2 : (⟨2, ![8192, 64]⟩ : Shape).Idx → EReal)
    (h : Shape.Concatenates [(⟨2, ![2048, 64]⟩ : Shape), ⟨2, ![8192, 64]⟩] ⟨2, ![10240, 64]⟩ 0)
    (h1 : ∀ i, IsReal (x1 i)) (h2 : ∀ i, IsReal (x2 i)) (j : (⟨2, ![10240, 64]⟩ : Shape).Idx) :
    IsReal (concatenate (⟨2, ![10240, 64]⟩ : Shape) 0 [⟨⟨2, ![2048, 64]⟩, x1⟩, ⟨⟨2, ![8192, 64]⟩, x2⟩] h j) := by
  have hj0 : (j 0).val < 10240 := idx2_lt0 j
  have hj1 : (j 1).val < 64 := idx2_lt1 j
  by_cases hj : (j 0).val < 2048
  · rw [concatenate_pair_apply_left 0 x1 x2 h j rfl (ix2 ⟨(j 0).val, hj⟩ ⟨(j 1).val, hj1⟩)
      (fun b => by match b with | ⟨0, _⟩ => rfl | ⟨1, _⟩ => rfl)]
    exact h1 _
  · rw [concatenate_pair_apply_right 0 x1 x2 h j rfl rfl (ix2 ⟨(j 0).val - 2048, by omega⟩ ⟨(j 1).val, hj1⟩)
      (fun b hb => by
        match b, hb with
        | ⟨0, _⟩, hb => exact absurd rfl hb
        | ⟨1, _⟩, _ => rfl)
      (by show (j 0).val - 2048 + 2048 = (j 0).val; omega)]
    exact h2 _

end Cert.ConcatReal

end
-- ==== Proof.KernelPieces.lean ====
/-
  What each case of the kernel body leaves in the two accumulators and in the output block, as the body's own
  arithmetic of the blocks it loads.

  At the first key block the body stores zeros into both accumulators and then adds the block's contribution to
  them; at every later key block it adds the contribution to what the accumulators held; at the last key block it
  also stores the quotient of the updated accumulators into the output block.
-/
import proofs.«142160_j3375844295427_1_alg».proof.Proof.Gen.KernelIdeal.Frame
import Idealize.ShloMosaic.Lib.Pipeline.Value

set_option maxRecDepth 16384

noncomputable section

namespace Cert.KernelPieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First key block: the numerator accumulator ends at zero plus the block's contribution. -/
theorem numFirst (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : cond0_0 i) (hc1 : ¬cond0_1 i)
    (x0 : Vec F S1024x64 .f32) (x1 : Vec F S1280x64 .f32) (x2 : Vec F S1280x10 .f32) :
    sout0_A_0 c i arg2 harg2 arg3 harg3 arg4 harg4 arg5 harg5 arg6 harg6 arg7 harg7 hc0 hc1 x0 x1 x2 = k0_pay6 x0 x1 (k0_pay3 (F := F)) x2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x10) hz, View.readCov_unit_zero (S := S1024x10) _ hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- First key block: the denominator accumulator ends at zero plus the block's row sums. -/
theorem denFirst (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : cond0_0 i) (hc1 : ¬cond0_1 i)
    (x0 : Vec F S1024x64 .f32) (x1 : Vec F S1280x64 .f32) (x2 : Vec F S1280x10 .f32) :
    sout0_A_1 c i arg2 harg2 arg3 harg3 arg4 harg4 arg5 harg5 arg6 harg6 arg7 harg7 hc0 hc1 x0 x1 x2 = k0_pay1 (k0_pay4 (F := F)) (k0_pay7 x0 x1) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- A middle key block: the numerator accumulator gains the block's contribution. -/
theorem numMid (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : ¬cond0_0 i) (hc1 : ¬cond0_1 i)
    (x0 : Vec F S1024x64 .f32) (x1 : Vec F S1280x64 .f32) (x2 : Vec F S1280x10 .f32) (xs0 : Vec F S1024x10 .f32) (xs1 : Vec F S1024x1 .f32) :
    sout0_B_0 c i arg2 harg2 arg3 harg3 arg4 harg4 arg5 harg5 arg6 harg6 arg7 harg7 hc0 hc1 x0 x1 x2 xs0 xs1 = k0_pay6 x0 x1 xs0 x2 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- A middle key block: the denominator accumulator gains the block's row sums. -/
theorem denMid (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : ¬cond0_0 i) (hc1 : ¬cond0_1 i)
    (x0 : Vec F S1024x64 .f32) (x1 : Vec F S1280x64 .f32) (x2 : Vec F S1280x10 .f32) (xs0 : Vec F S1024x10 .f32) (xs1 : Vec F S1024x1 .f32) :
    sout0_B_1 c i arg2 harg2 arg3 harg3 arg4 harg4 arg5 harg5 arg6 harg6 arg7 harg7 hc0 hc1 x0 x1 x2 xs0 xs1 = k0_pay1 xs1 (k0_pay7 x0 x1) := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- The last key block: the numerator accumulator gains the block's contribution. -/
theorem numLast (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : ¬cond0_0 i) (hc1 : cond0_1 i)
    (x0 : Vec F S1024x64 .f32) (x1 : Vec F S1280x64 .f32) (x2 : Vec F S1280x10 .f32) (xs0 : Vec F S1024x10 .f32) (xs1 : Vec F S1024x1 .f32) :
    sout0_C_0 c i arg2 harg2 arg3 harg3 arg4 harg4 arg5 harg5 arg6 harg6 arg7 harg7 hc0 hc1 x0 x1 x2 xs0 xs1 = k0_pay6 x0 x1 xs0 x2 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- The last key block: the denominator accumulator gains the block's row sums. -/
theorem denLast (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : ¬cond0_0 i) (hc1 : cond0_1 i)
    (x0 : Vec F S1024x64 .f32) (x1 : Vec F S1280x64 .f32) (x2 : Vec F S1280x10 .f32) (xs0 : Vec F S1024x10 .f32) (xs1 : Vec F S1024x1 .f32) :
    sout0_C_1 c i arg2 harg2 arg3 harg3 arg4 harg4 arg5 harg5 arg6 harg6 arg7 harg7 hc0 hc1 x0 x1 x2 xs0 xs1 = k0_pay1 xs1 (k0_pay7 x0 x1) := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

/-- The last key block: the output block is the quotient of the two updated accumulators. -/
theorem outLast (c : Dev nD) (i : grid0.Coords) (arg2 : Memref sig .tc .vmem S1024x64 .f32) (harg2 : arg2.IsWhole) (arg3 : Memref sig .tc .vmem S1280x64 .f32) (harg3 : arg3.IsWhole) (arg4 : Memref sig .tc .vmem S1280x10 .f32) (harg4 : arg4.IsWhole) (arg5 : Memref sig .tc .vmem S1024x10 .f32) (harg5 : arg5.IsWhole) (arg6 : Memref sig .tc .vmem S1024x10 .f32) (harg6 : arg6.IsWhole) (arg7 : Memref sig .tc .vmem S1024x1 .f32) (harg7 : arg7.IsWhole) (hc0 : ¬cond0_0 i) (hc1 : cond0_1 i)
    (x0 : Vec F S1024x64 .f32) (x1 : Vec F S1280x64 .f32) (x2 : Vec F S1280x10 .f32) (xs0 : Vec F S1024x10 .f32) (xs1 : Vec F S1024x1 .f32) :
    out0_C_3 c i arg2 harg2 arg3 harg3 arg4 harg4 arg5 harg5 arg6 harg6 arg7 harg7 hc0 hc1 x0 x1 x2 xs0 xs1 = k0_pay2 (k0_pay6 x0 x1 xs0 x2) (k0_pay1 xs1 (k0_pay7 x0 x1)) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x64) hz, View.ld_unit_zero (S := S1280x64) hz, View.ld_unit_zero (S := S1280x10) hz, View.ld_unit_zero (S := S1024x10) hz, View.ld_unit_zero (S := S1024x1) hz, View.readCov_unit_zero (S := S1024x10) _ hz, View.readCov_unit_zero (S := S1024x1) _ hz]

end Cert.KernelPieces

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.LibRowCast.lean ====
/-
  A vector laid out as a one-row matrix, read at an index.

  General facts (any element type, any extent) that a value proof over a kernel body needs when the body turns the result of
  a reduction along rows into a row to broadcast down the columns.
-/
import Idealize.ShloMosaic.Lib.Pipeline.Value
import Idealize.ShloMosaic.Lib.ValueIdx

noncomputable section

namespace RowCast

open Idealize.ShloMosaic Idealize.ShloMosaic.ValueIdx

/-- A [b] array cast to [1, b] reads, at (u, q), the operand at q, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end RowCast

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KernelBlocks.lean ====
/-
  What the kernel body computes from one block of queries, one block of keys and one block of class scores, entry by entry.

  For a block x of 1024 query rows and a block a of 1280 key rows the body forms the 1024 x 1280 matrix of multiplied
  Gaussian weights w(r, s) = exp(-1/2 ((|x_r|^2 + |a_s|^2) - 2 <x_r, a_s>)) * c, adds w · p (p the 1280 x 10 block of
  scores) to a 1024 x 10 accumulator and the row sums of w to a 1024 x 1 accumulator, and at the last key block divides
  the first accumulator by the second, row by row.
-/
import proofs.«142160_j3375844295427_1_alg».proof.Proof.Gen.KernelIdeal.Skeleton
import proofs.«142160_j3375844295427_1_alg».proof.Proof.GaussAverage
import proofs.«142160_j3375844295427_1_alg».proof.Proof.LibRowSum
import proofs.«142160_j3375844295427_1_alg».proof.Proof.LibKeepdims
import proofs.«142160_j3375844295427_1_alg».proof.Proof.LibRowLayout
import proofs.«142160_j3375844295427_1_alg».proof.Proof.LibRowCast
import proofs.«142160_j3375844295427_1_alg».proof.Proof.LibDotForms
import proofs.«142160_j3375844295427_1_alg».proof.Proof.LibPlainDot

noncomputable section

open scoped BigOperators

namespace Cert.KernelBlocks

open Cert.KernelIdeal Cert.KernelIdeal.Gen Idealize.ShloMosaic Idealize.ShloMosaic.TcCoe Idealize.ShloMosaic.ValueIdx
open Cert.GaussAverage

/-- The multiplied weight of key row s of the key block for query row r of the query block. -/
def wblk (x : (⟨2, ![1024, 64]⟩ : Shape).Idx → EReal) (a : (⟨2, ![1280, 64]⟩ : Shape).Idx → EReal) (r : Fin 1024) (s : Fin 1280) : EReal :=
  Ideal.exp (mhalf * (((∑ d : Fin 64, x (ix2 r d) * x (ix2 r d)) + ∑ d : Fin 64, a (ix2 s d) * a (ix2 s d))
    - two * ∑ d : Fin 64, x (ix2 r d) * a (ix2 s d))) * cK

/-- A lane sum over the second axis from the zero word, at row p: the sum of the row. The accumulator's side condition is
    stated for the zero word itself, as the printed body carries it. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) :=
  RowSum.multiReduction_apply src 0x00000000#32 h hφ hacc p

theorem exp_apply {s : Shape} (v : FVec Ideal s .f32) (i : s.Idx) : exp v i = Ideal.exp (v i) := rfl

/-- The weight matrix of a pair of blocks, entry by entry. -/
theorem weights_apply (x0 : Vec Ideal S1024x64 .f32) (x1 : Vec Ideal S1280x64 .f32) (r : Fin 1024) (s : Fin 1280) :
    k0_pay5 (F := Ideal) x0 x1 (ix2 r s) = wblk x0 x1 r s := by
  unfold k0_pay5 wblk
  try dsimp only
  rw [shapeCast_self]
  simp only [mulf_apply, subf_apply, addf_apply, broadcast_apply, exp_apply]
  rw [KeepdimsLayout.broadcastTo_a1_ab_apply, KeepdimsLayout.shapeCast_a_a1_apply, rowSum_apply,
    RowLayout.broadcastTo_1b_ab_apply, RowCast.shapeCast_b_1b_apply, rowSum_apply,
    DotForms.abt_matmul_zero_apply ⟨rfl, rfl, rfl, rfl, rfl, rfl⟩]
  simp only [mulf_apply]
  rfl

/-- The numerator accumulator after a block: what it held plus the weights times the scores. -/
theorem num_apply (x0 : Vec Ideal S1024x64 .f32) (x1 : Vec Ideal S1280x64 .f32) (acc : Vec Ideal S1024x10 .f32)
    (x2 : Vec Ideal S1280x10 .f32) (r : Fin 1024) (c : Fin 10) :
    k0_pay6 (F := Ideal) x0 x1 acc x2 (ix2 r c) = acc (ix2 r c) + ∑ s : Fin 1280, wblk x0 x1 r s * x2 (ix2 s c) := by
  unfold k0_pay6
  try dsimp only
  rw [shapeCast_self, shapeCast_self, addf_apply, PlainDot.matmul_zero_apply ⟨rfl, rfl, rfl, rfl, rfl, rfl⟩]
  simp only [weights_apply]

/-- The denominator accumulator after a block: what it held plus the row sums of the weights. -/
theorem den_apply (x0 : Vec Ideal S1024x64 .f32) (x1 : Vec Ideal S1280x64 .f32) (acc : Vec Ideal S1024x1 .f32)
    (r : Fin 1024) (u : Fin 1) :
    k0_pay1 (F := Ideal) acc (k0_pay7 (F := Ideal) x0 x1) (ix2 r u) = acc (ix2 r u) + ∑ s : Fin 1280, wblk x0 x1 r s := by
  unfold k0_pay1 k0_pay7
  try dsimp only
  rw [shapeCast_self, addf_apply, KeepdimsLayout.shapeCast_a_a1_apply, rowSum_apply]
  simp only [weights_apply]

/-- The quotient the last key block stores: the numerator accumulator over the denominator accumulator of its row. -/
theorem quot_apply (n : Vec Ideal S1024x10 .f32) (d : Vec Ideal S1024x1 .f32) (r : Fin 1024) (c : Fin 10) :
    k0_pay2 (F := Ideal) n d (ix2 r c) = Ideal.div (n (ix2 r c)) (d (ix2 r (0 : Fin 1))) := by
  unfold k0_pay2
  try dsimp only
  rw [divf_apply, KeepdimsLayout.broadcastTo_a1_ab_apply]

/-- The numerator accumulator at a reset: zero. -/
theorem zero10_apply (i : S1024x10.Idx) : k0_pay3 (F := Ideal) i = 0 := by
  unfold k0_pay3
  try dsimp only
  rw [shapeCast_self, broadcast_apply]
  exact Ideal.ofBits_zero_f32

/-- The denominator accumulator at a reset: zero. -/
theorem zero1_apply (i : S1024x1.Idx) : k0_pay4 (F := Ideal) i = 0 := by
  unfold k0_pay4
  try dsimp only
  rw [shapeCast_self, broadcast_apply]
  exact Ideal.ofBits_zero_f32

end Cert.KernelBlocks

end
-- ==== Proof.KernelGrid.lean ====
/-
  The kernel over its grid of 4 query blocks by 8 key blocks.

  Point t of the grid (t < 32) works on query block t / 8 and key block t % 8: its three input blocks are rows
  1024 (t / 8) … of the queries, rows 1280 (t % 8) … of the keys and the same rows of the scores. The keys are the
  labelled points stacked on the unlabelled ones and the scores are the one-hot labels stacked on the softmax of the
  unlabelled scores; the host computes both before the grid starts, by the same operations as the reference.
  After point t the numerator accumulator holds, for each row r of the query block and each class c, the sum over the
  key blocks 0 … t % 8 of that block's share of the numerator of query 1024 (t / 8) + r; the denominator accumulator
  likewise: by induction on t, the first point of each query block resetting both.
-/
import proofs.«142160_j3375844295427_1_alg».proof.Proof.Gen.KernelIdeal.Value
import proofs.«142160_j3375844295427_1_alg».proof.Proof.KernelPieces
import proofs.«142160_j3375844295427_1_alg».proof.Proof.KernelBlocks
import proofs.«142160_j3375844295427_1_alg».proof.Proof.GaussAverage
import proofs.«142160_j3375844295427_1_alg».proof.Proof.RefRead

set_option maxRecDepth 16384

noncomputable section

open scoped BigOperators

namespace Cert.KernelGrid

open Cert.KernelIdeal Cert.KernelIdeal.Gen Cert.KernelIdeal.Value Idealize.ShloMosaic Idealize.ShloMosaic.TcCoe Idealize.SL.Sem
open Idealize.ShloMosaic.StableHlo
open Idealize.ShloMosaic.ValueIdx Cert.GaussAverage Cert.KernelBlocks Cert.KernelPieces

/-! ## The two arrays the host prepares -/

section Host

variable {F : FTy → Type} [FloatOps F] (m : (ℓ : Loc nD τ sig) → Buf (Elt F) ℓ)

/-- The keys the region finds: the labelled points stacked on the unlabelled ones, as the reference stacks them. -/
theorem keys_eq (c : Dev nD) :
    (V m c main_v0 : S10240x64.Idx → Elt F .f32) = Cert.ReferenceIdeal.PRead.val_main_v0 (F := F)
      (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  rfl

set_option maxHeartbeats 2000000 in
/-- The scores the region finds: the one-hot labels stacked on the softmax of the unlabelled scores, by the reference's
    own operations. -/
theorem scores_eq (c : Dev nD) :
    (V m c main_v13 : S10240x10.Idx → Elt F .f32) = Cert.ReferenceIdeal.PRead.val_main_v36 (F := F)
      (m ((c : Thread nD τ).loc main_arg3)) (m ((c : Thread nD τ).loc main_arg4)) := by
  dsimp only [V]
  simp only [hostOps0, hostOps0_1, hostOps0_2, List.flatten_cons, List.flatten_nil, List.append_nil, List.cons_append,
    List.nil_append]
  after_results_simp
  repeat (first | rw [nullary_result] | rw [unary_result] | rw [binary_result] | (rw [nullary_result_ne]; rotate_left; decide) | (rw [unary_result_ne]; rotate_left; decide) | (rw [binary_result_ne]; rotate_left; decide))
  rfl

end Host

variable (m : (ℓ : Loc nD τ sig) → Buf (Elt Ideal) ℓ)

/-! ## The arrays and the blocks, by their literal types -/

/-- The queries, the keys and the scores as the region finds them. -/
abbrev xarr (c : Dev nD) : Vec Ideal S4096x64 .f32 := V m c main_arg0
abbrev aarr (c : Dev nD) : Vec Ideal S10240x64 .f32 := V m c main_v0
abbrev parr (c : Dev nD) : Vec Ideal S10240x10 .f32 := V m c main_v13
/-- Point t's block of each. -/
abbrev xblk (c : Dev nD) (t : Fin cfg0.N) : Vec Ideal S1024x64 .f32 := iblk m c 0 t
abbrev ablk (c : Dev nD) (t : Fin cfg0.N) : Vec Ideal S1280x64 .f32 := iblk m c 1 t
abbrev pblk (c : Dev nD) (t : Fin cfg0.N) : Vec Ideal S1280x10 .f32 := iblk m c 2 t

theorem hN : cfg0.N = 32 := N_0

/-- Point t's query block and key block. -/
def qi (t : Fin cfg0.N) : Fin 4 := ⟨t.val / 8, by have h1 := t.isLt; have h2 := hN; omega⟩
def kj (t : Fin cfg0.N) : Fin 8 := ⟨t.val % 8, Nat.mod_lt _ (by decide)⟩

/-- The printed index maps, decided over the grid: the queries and the output move with t / 8, the keys and the scores
    with t % 8, and no window moves along its second axis. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- Row r of point t's query block is query row 1024 (t / 8) + r. -/
theorem xblk_apply (c : Dev nD) (t : Fin cfg0.N) (r : Fin 1024) (d : Fin 64) :
    xblk m c t (ix2 r d) = xarr m c (ix2 (rowX (qi t) r) d) := by
  obtain ⟨e0, e1, -⟩ := idx_facts t
  have h : ((cfg0.win 0).blk t).view.emb (ix2 r d : S1024x64.Idx) = (ix2 (rowX (qi t) r) d : S4096x64.Idx) := by
    funext a; apply Fin.ext
    match a with
    | ⟨0, _⟩ => show win0_0.index t (0 : Fin 2) * 1024 + 1 * r.val = 1024 * (t.val / 8) + r.val; omega
    | ⟨1, _⟩ => show win0_0.index t (1 : Fin 2) * 64 + 1 * d.val = d.val; omega
  show V m c main_arg0 (((cfg0.win 0).blk t).view.emb (ix2 r d : S1024x64.Idx)) = _
  rw [h]

/-- Row s of point t's key block is key row 1280 (t % 8) + s. -/
theorem ablk_apply (c : Dev nD) (t : Fin cfg0.N) (s : Fin 1280) (d : Fin 64) :
    ablk m c t (ix2 s d) = aarr m c (ix2 (rowA (kj t) s) d) := by
  obtain ⟨-, -, e2, e3, -⟩ := idx_facts t
  have h : ((cfg0.win 1).blk t).view.emb (ix2 s d : S1280x64.Idx) = (ix2 (rowA (kj t) s) d : S10240x64.Idx) := by
    funext a; apply Fin.ext
    match a with
    | ⟨0, _⟩ => show win0_1.index t (0 : Fin 2) * 1280 + 1 * s.val = 1280 * (t.val % 8) + s.val; omega
    | ⟨1, _⟩ => show win0_1.index t (1 : Fin 2) * 64 + 1 * d.val = d.val; omega
  show V m c main_v0 (((cfg0.win 1).blk t).view.emb (ix2 s d : S1280x64.Idx)) = _
  rw [h]

/-- Row s of point t's block of scores is score row 1280 (t % 8) + s. -/
theorem pblk_apply (c : Dev nD) (t : Fin cfg0.N) (s : Fin 1280) (cc : Fin 10) :
    pblk m c t (ix2 s cc) = parr m c (ix2 (rowA (kj t) s) cc) := by
  obtain ⟨-, -, -, -, e4, e5, -⟩ := idx_facts t
  have h : ((cfg0.win 2).blk t).view.emb (ix2 s cc : S1280x10.Idx) = (ix2 (rowA (kj t) s) cc : S10240x10.Idx) := by
    funext a; apply Fin.ext
    match a with
    | ⟨0, _⟩ => show win0_2.index t (0 : Fin 2) * 1280 + 1 * s.val = 1280 * (t.val % 8) + s.val; omega
    | ⟨1, _⟩ => show win0_2.index t (1 : Fin 2) * 10 + 1 * cc.val = cc.val; omega
  show V m c main_v13 (((cfg0.win 2).blk t).view.emb (ix2 s cc : S1280x10.Idx)) = _
  rw [h]

/-! ## One point's contribution -/

/-- The block's weight matrix holds the multiplied Gaussian weights of the block's keys for the block's queries. -/
theorem wblk_eq (c : Dev nD) (t : Fin cfg0.N) (r : Fin 1024) (s : Fin 1280) :
    wblk (xblk m c t) (ablk m c t) r s = gauss (xarr m c) (aarr m c) (rowX (qi t) r) (rowA (kj t) s) * cK := by
  unfold wblk gauss sqdist
  simp only [xblk_apply, ablk_apply]

/-- The numerator accumulator after point t: what it held plus key block t % 8's share. -/
theorem step_num (c : Dev nD) (t : Fin cfg0.N) (acc : Vec Ideal S1024x10 .f32) (r : Fin 1024) (cc : Fin 10) :
    k0_pay6 (F := Ideal) (xblk m c t) (ablk m c t) acc (pblk m c t) (ix2 r cc)
      = acc (ix2 r cc) + numBlk (xarr m c) (aarr m c) (parr m c) (rowX (qi t) r) cc (kj t) := by
  refine (num_apply (xblk m c t) (ablk m c t) acc (pblk m c t) r cc).trans ?_
  unfold numBlk
  simp only [wblk_eq, pblk_apply]

/-- The denominator accumulator after point t: what it held plus key block t % 8's share. -/
theorem step_den (c : Dev nD) (t : Fin cfg0.N) (acc : Vec Ideal S1024x1 .f32) (r : Fin 1024) (u : Fin 1) :
    k0_pay1 (F := Ideal) acc (k0_pay7 (F := Ideal) (xblk m c t) (ablk m c t)) (ix2 r u)
      = acc (ix2 r u) + denBlk (xarr m c) (aarr m c) (rowX (qi t) r) (kj t) := by
  refine (den_apply (xblk m c t) (ablk m c t) acc r u).trans ?_
  unfold denBlk
  simp only [wblk_eq]

/-! ## The accumulators after each point -/

/-- An accumulator that was reset at the first of eight blocks holds, after it, zero plus that block's share. -/
theorem upTo_first (f : Fin 8 → EReal) (n : ℕ) (h0 : n % 8 = 0) :
    upTo f (n % 8 + 1) = 0 + f ⟨n % 8, Nat.mod_lt _ (by decide)⟩ := by
  have e : upTo f (n % 8) = 0 := by rw [h0]; exact upTo_zero f
  rw [upTo_succ f (n % 8) (Nat.mod_lt _ (by decide)), e]

/-- Past the first of eight blocks, one more block's share is added to what the point before left. -/
theorem upTo_next (f : Fin 8 → EReal) (k : ℕ) (h0 : ¬(k + 1) % 8 = 0) :
    upTo f ((k + 1) % 8 + 1) = upTo f (k % 8 + 1) + f ⟨(k + 1) % 8, Nat.mod_lt _ (by decide)⟩ := by
  have e : k % 8 + 1 = (k + 1) % 8 := by omega
  rw [upTo_succ f ((k + 1) % 8) (Nat.mod_lt _ (by decide)), e]

/-- What the two accumulators hold after point n: for the query block n / 8, the shares of the key blocks 0 … n % 8. -/
def AccAt (c : Dev nD) (n : ℕ) (hn : n < cfg0.N) : Prop :=
  (∀ (r : Fin 1024) (cc : Fin 10), (outsAt0 m c n hn).2.1 (ix2 r cc)
      = upTo (numBlk (xarr m c) (aarr m c) (parr m c) (rowX (qi ⟨n, hn⟩) r) cc) (n % 8 + 1))
  ∧ (∀ (r : Fin 1024) (u : Fin 1), (outsAt0 m c n hn).2.2 (ix2 r u)
      = upTo (denBlk (xarr m c) (aarr m c) (rowX (qi ⟨n, hn⟩) r)) (n % 8 + 1))

/-- A point that starts a query block. -/
theorem acc_first (c : Dev nD) (t : Fin cfg0.N) (h0 : t.val % 8 = 0) : AccAt m c t.val t.isLt := by
  have h1 : ¬t.val % 8 = 7 := by omega
  unfold AccAt
  rw [outsAt0_A m c t h0 h1]
  dsimp only
  constructor
  · intro r cc
    refine (congrFun (numFirst (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 r cc)).trans ?_
    refine (step_num m c t (k0_pay3 (F := Ideal)) r cc).trans ?_
    rw [zero10_apply, upTo_first _ t.val h0]
    rfl
  · intro r u
    refine (congrFun (denFirst (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 r u)).trans ?_
    refine (step_den m c t (k0_pay4 (F := Ideal)) r u).trans ?_
    rw [zero1_apply, upTo_first _ t.val h0]
    rfl

/-- A later point of a query block, given the point before. -/
theorem acc_next (c : Dev nD) (k : ℕ) (hk : k + 1 < cfg0.N) (h0 : ¬(k + 1) % 8 = 0)
    (ih : AccAt m c k (Nat.lt_of_succ_lt hk)) : AccAt m c (k + 1) hk := by
  have hq : qi ⟨k, Nat.lt_of_succ_lt hk⟩ = qi ⟨k + 1, hk⟩ := Fin.ext (by show k / 8 = (k + 1) / 8; omega)
  obtain ⟨ihn, ihd⟩ := ih
  rw [hq] at ihn ihd
  unfold AccAt
  by_cases h1 : (k + 1) % 8 = 7
  · rw [outsAt0_C m c ⟨k + 1, hk⟩ h0 h1]
    dsimp only
    constructor
    · intro r cc
      refine (congrFun (numLast (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) scM0_1 (Memref.isWhole_whole _) (fun h => h0 ((hcond0_0 ⟨k + 1, hk⟩).mp h)) ((hcond0_1 ⟨k + 1, hk⟩).mpr h1) (iblk m c 0 ⟨k + 1, hk⟩) (iblk m c 1 ⟨k + 1, hk⟩) (iblk m c 2 ⟨k + 1, hk⟩) _ _) (ix2 r cc)).trans ?_
      refine (step_num m c ⟨k + 1, hk⟩ _ r cc).trans ?_
      rw [upTo_next _ k h0]
      exact congrArg (· + _) (ihn r cc)
    · intro r u
      refine (congrFun (denLast (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) scM0_1 (Memref.isWhole_whole _) (fun h => h0 ((hcond0_0 ⟨k + 1, hk⟩).mp h)) ((hcond0_1 ⟨k + 1, hk⟩).mpr h1) (iblk m c 0 ⟨k + 1, hk⟩) (iblk m c 1 ⟨k + 1, hk⟩) (iblk m c 2 ⟨k + 1, hk⟩) _ _) (ix2 r u)).trans ?_
      refine (step_den m c ⟨k + 1, hk⟩ _ r u).trans ?_
      rw [upTo_next _ k h0]
      exact congrArg (· + _) (ihd r u)
  · rw [outsAt0_B m c ⟨k + 1, hk⟩ h0 h1]
    dsimp only
    constructor
    · intro r cc
      refine (congrFun (numMid (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) scM0_1 (Memref.isWhole_whole _) (fun h => h0 ((hcond0_0 ⟨k + 1, hk⟩).mp h)) (fun h => h1 ((hcond0_1 ⟨k + 1, hk⟩).mp h)) (iblk m c 0 ⟨k + 1, hk⟩) (iblk m c 1 ⟨k + 1, hk⟩) (iblk m c 2 ⟨k + 1, hk⟩) _ _) (ix2 r cc)).trans ?_
      refine (step_num m c ⟨k + 1, hk⟩ _ r cc).trans ?_
      rw [upTo_next _ k h0]
      exact congrArg (· + _) (ihn r cc)
    · intro r u
      refine (congrFun (denMid (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) scM0_1 (Memref.isWhole_whole _) (fun h => h0 ((hcond0_0 ⟨k + 1, hk⟩).mp h)) (fun h => h1 ((hcond0_1 ⟨k + 1, hk⟩).mp h)) (iblk m c 0 ⟨k + 1, hk⟩) (iblk m c 1 ⟨k + 1, hk⟩) (iblk m c 2 ⟨k + 1, hk⟩) _ _) (ix2 r u)).trans ?_
      refine (step_den m c ⟨k + 1, hk⟩ _ r u).trans ?_
      rw [upTo_next _ k h0]
      exact congrArg (· + _) (ihd r u)

/-- THE ACCUMULATORS after every point of the grid. -/
theorem acc_inv (c : Dev nD) : ∀ (n : ℕ) (hn : n < cfg0.N), AccAt m c n hn := by
  intro n
  induction n with
  | zero => intro hn; exact acc_first m c ⟨0, hn⟩ rfl
  | succ k ih =>
    intro hk
    by_cases h0 : (k + 1) % 8 = 0
    · exact acc_first m c ⟨k + 1, hk⟩ h0
    · exact acc_next m c k hk h0 (ih (Nat.lt_of_succ_lt hk))

end Cert.KernelGrid

end
-- ==== Proof.KernelValue.lean ====
/-
  The array the kernel ends with is the weighted average.

  Only the last point of each query block (t % 8 = 7) writes its output block back: it stores the numerator accumulator
  divided, row by row, by the denominator accumulator, and by then both hold all eight key blocks' shares, so the block
  is rows 1024 (t / 8) … of the average. The four blocks written back tile the 4096 rows of the result.
-/
import proofs.«142160_j3375844295427_1_alg».proof.Proof.KernelGrid

set_option maxRecDepth 16384

noncomputable section

open scoped BigOperators

namespace Cert.KernelValue

open Cert.KernelIdeal Cert.KernelIdeal.Gen Cert.KernelIdeal.Value Idealize.ShloMosaic Idealize.ShloMosaic.TcCoe Idealize.SL.Sem
open Idealize.ShloMosaic.ValueIdx Cert.GaussAverage Cert.KernelBlocks Cert.KernelPieces Cert.KernelGrid Cert.RealValued
open Idealize.ShloMosaic.Pipeline (Dat)

variable (m : (ℓ : Loc nD τ sig) → Buf (Elt Ideal) ℓ) (ρ : Dev nD → PrngReg)

/-- At the last point of a query block the output block is the quotient of the two accumulators as that point leaves
    them. -/
theorem out_eq (c : Dev nD) (t : Fin cfg0.N) (h0 : ¬t.val % 8 = 0) (h1 : t.val % 8 = 7) :
    (outsAt0 m c t.val t.isLt).1
      = k0_pay2 (F := Ideal) (outsAt0 m c t.val t.isLt).2.1 (outsAt0 m c t.val t.isLt).2.2 := by
  rw [outsAt0_C m c t h0 h1]
  dsimp only
  exact (outLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans
    (congrArg₂ (k0_pay2 (F := Ideal))
      (numLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).symm
      (denLast (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).symm)

/-- WHAT A FLUSHING POINT WRITES BACK is its block of the average, when the points are real. -/
theorem flushed_eq (c : Dev nD) (hX : ∀ i, IsReal (xarr m c i)) (hA : ∀ i, IsReal (aarr m c i))
    (t : Fin cfg0.N) (hf : (cfg0.win 3).flush t = true) :
    (dats m 0 c).flushed 3 t
      = ((cfg0.win 3).blk t).view.read (Elt Ideal) (avg (xarr m c) (aarr m c) (parr m c)) := by
  have h7 : t.val % 8 = 7 := (flush0_3 t).mp hf
  have h0 : ¬t.val % 8 = 0 := by omega
  obtain ⟨-, -, -, -, -, -, e6, e7⟩ := idx_facts t
  rw [flushed3, out_eq m c t h0 h7]
  funext y
  obtain ⟨r, cc, rfl⟩ : ∃ (r : Fin 1024) (cc : Fin 10), y = ix2 r cc := ⟨y 0, y 1, eq_ix2 y⟩
  have hemb : ((cfg0.win 3).blk t).view.emb (ix2 r cc : S1024x10.Idx) = (ix2 (rowX (qi t) r) cc : S4096x10.Idx) := by
    funext a; apply Fin.ext
    match a with
    | ⟨0, _⟩ => show win0_3.index t (0 : Fin 2) * 1024 + 1 * r.val = 1024 * (t.val / 8) + r.val; omega
    | ⟨1, _⟩ => show win0_3.index t (1 : Fin 2) * 10 + 1 * cc.val = cc.val; omega
  show k0_pay2 (F := Ideal) (outsAt0 m c t.val t.isLt).2.1 (outsAt0 m c t.val t.isLt).2.2 (ix2 r cc)
    = avg (xarr m c) (aarr m c) (parr m c) (((cfg0.win 3).blk t).view.emb (ix2 r cc : S1024x10.Idx))
  rw [hemb, avg_ix2]
  refine (quot_apply _ _ r cc).trans ?_
  obtain ⟨hn, hd⟩ := acc_inv m c t.val t.isLt
  have e8 : t.val % 8 + 1 = 8 := by omega
  rw [hn r cc, hd r 0, e8]
  exact blocks_eq (parr m c) hX hA (rowX (qi t) r) cc

/-- An index of the result is in point t's block iff its row is among the block's 1024 rows. -/
theorem mem_blk (t : Fin cfg0.N) (i : S4096x10.Idx) :
    i ∈ ((cfg0.win 3).blk t).view.set ↔ ∀ a : Fin 2, win0_3.index t a * S1024x10.size a ≤ (i a).val
      ∧ (i a).val < win0_3.index t a * S1024x10.size a + S1024x10.size a := by
  show i ∈ ((View.whole main_v14).slice (win0_3.rect t)).set ↔ _
  rw [View.set_slice_whole, Rect.mem_set_unit]
  exact Iff.rfl

/-- Every index of the result is in the block of the last point of its query block, which is written back. -/
theorem cover (i : S4096x10.Idx) :
    ∃ t : Fin cfg0.N, (cfg0.win 3).flush t = true ∧ i ∈ ((cfg0.win 3).blk t).view.set := by
  have hi0 : (i 0).val < 4096 := idx2_lt0 i
  have hi1 : (i 1).val < 10 := idx2_lt1 i
  have hN' : cfg0.N = 32 := hN
  have ht : 8 * ((i 0).val / 1024) + 7 < cfg0.N := by omega
  obtain ⟨-, -, -, -, -, -, e6, e7⟩ := idx_facts ⟨8 * ((i 0).val / 1024) + 7, ht⟩
  have e6' : win0_3.index ⟨8 * ((i 0).val / 1024) + 7, ht⟩ (0 : Fin 2) = (8 * ((i 0).val / 1024) + 7) / 8 := e6
  refine ⟨⟨8 * ((i 0).val / 1024) + 7, ht⟩, (flush0_3 _).mpr (by show (8 * ((i 0).val / 1024) + 7) % 8 = 7; omega), ?_⟩
  rw [mem_blk]
  intro a
  match a with
  | ⟨0, _⟩ =>
    show win0_3.index ⟨8 * ((i 0).val / 1024) + 7, ht⟩ (0 : Fin 2) * 1024 ≤ (i 0).val
      ∧ (i 0).val < win0_3.index ⟨8 * ((i 0).val / 1024) + 7, ht⟩ (0 : Fin 2) * 1024 + 1024
    omega
  | ⟨1, _⟩ =>
    show win0_3.index ⟨8 * ((i 0).val / 1024) + 7, ht⟩ (1 : Fin 2) * 10 ≤ (i 1).val
      ∧ (i 1).val < win0_3.index ⟨8 * ((i 0).val / 1024) + 7, ht⟩ (1 : Fin 2) * 10 + 10
    omega

/-- THE ARRAY after the run is the average of the scores under the Gaussian weights. -/
theorem final (c : Dev nD) (hX : ∀ i, IsReal (xarr m c i)) (hA : ∀ i, IsReal (aarr m c i)) :
    (dats m 0 c).arrAt 3 cfg0.N = avg (xarr m c) (aarr m c) (parr m c) :=
  (dats m 0 c).arrAt_eq_of_cover 3 (avg (xarr m c) (aarr m c) (parr m c))
    (fun t hf => flushed_eq m c hX hA t hf) cover

/-- The kernel's run, read: the result array at the average, the arguments unchanged. -/
theorem run (hreal : ∀ c : Dev nD, (∀ i, IsReal (xarr m c i)) ∧ (∀ i, IsReal (aarr m c i))) :
    θ_run defs (onTc (τ := τ) (main (F := Ideal))) ⟨m, fun _ => 0, ρ⟩ fun r => ∀ c : Dev nD,
      r.2.mem ((c : Thread nD τ).loc main_v14) = avg (xarr m c) (aarr m c) (parr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hreal c).1 (hreal c).2), (h c).2⟩) (run_blocks m ρ)

end Cert.KernelValue

end
-- ==== Proof.lean ====
/-
  A Gaussian-weighted average of class scores, computed two ways.

  Both programs take queries x (4096 x 64), labelled points x_l (2048 x 64) with labels y_l, unlabelled points x_u
  (8192 x 64) with scores s_u (8192 x 10). Both stack x_l on x_u into the 10240 keys a, and the one-hot labels on the
  softmax of s_u into the 10240 x 10 scores P, by the same host operations. With the weight
      g(n, k) = exp(-1/2 ((|x_n|^2 + |a_k|^2) - 2 <x_n, a_k>))
  both return
      avg(n, c) = (sum_k g(n, k) P(k, c)) / (sum_k g(n, k)).
  The kernel multiplies every weight by the single-precision value of 1 / sqrt(2 pi) and accumulates numerator and
  denominator over 8 blocks of 1280 keys for each block of 1024 queries; the reference divides every weight by the
  single-precision value of sqrt(2 pi) (and both point arrays by 1) and sums over all keys at once. The two constants
  are not reciprocal as real numbers, but each scales numerator and denominator alike and cancels: for real points
  the weights are positive reals, a positive real factor leaves any finite sum of extended reals, and the sum of the
  weights is positive. The precondition supplies exactly that the points are real. Nothing is asked of P.

  The kernel's frame at both instances is the generated one; the reference's frame is its run with the result
  dropped; no operation of the kernel was rewritten by the idealization, so there is nothing to preserve.
-/
import proofs.«142160_j3375844295427_1_alg».proof.Defs
import proofs.«142160_j3375844295427_1_alg».proof.Proof.Gen.Kernel
import proofs.«142160_j3375844295427_1_alg».proof.Proof.Gen.Kernel.Frame
import proofs.«142160_j3375844295427_1_alg».proof.Proof.Gen.KernelIdeal
import proofs.«142160_j3375844295427_1_alg».proof.Proof.Gen.KernelIdeal.Frame
import proofs.«142160_j3375844295427_1_alg».proof.Proof.Gen.KernelIdeal.Value
import proofs.«142160_j3375844295427_1_alg».proof.Proof.Gen.ReferenceIdeal
import proofs.«142160_j3375844295427_1_alg».proof.Proof.Gen.Pre_finite_inputs
import proofs.«142160_j3375844295427_1_alg».proof.Proof.RefRun
import proofs.«142160_j3375844295427_1_alg».proof.Proof.RefRead
import proofs.«142160_j3375844295427_1_alg».proof.Proof.RefAverage
import proofs.«142160_j3375844295427_1_alg».proof.Proof.FiniteInputs
import proofs.«142160_j3375844295427_1_alg».proof.Proof.ConcatReal
import proofs.«142160_j3375844295427_1_alg».proof.Proof.KernelValue
import Idealize.ShloMosaic.Adequacy
import Idealize.ShloMosaic.Init

noncomputable section

namespace Cert.Proof

open Idealize.ShloMosaic Idealize.SL.Sem Cert.GaussAverage Cert.RealValued

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The idealization rewrote nothing. -/
theorem preserves : Cert.preserves_Kernel_KernelIdeal := trivial

/-- From memories that agree on the arguments, the points real: both programs end with the weighted average. -/
theorem algebraic : Cert.algebraic_KernelIdeal_ReferenceIdeal := by
  intro m ρ m' ρ' hpre hagree
  have hr := fun c : Dev Cert.KernelIdeal.nD => Cert.FiniteInputs.reals_of_pre _ _ _ _ _ (hpre c)
  have hkeys : ∀ (c : Dev Cert.KernelIdeal.nD) i, IsReal (Cert.ReferenceIdeal.PRead.val_main_v0 (F := Ideal)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) i) :=
    fun c i => Cert.ConcatReal.concat_real _ _ _ (hr c).2.1 (hr c).2.2 i
  refine ⟨fun c => avg (m ((c.tc : Thread Cert.KernelIdeal.nD Cert.KernelIdeal.τ).loc Cert.KernelIdeal.main_arg0))
    (Cert.ReferenceIdeal.PRead.val_main_v0 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (Cert.ReferenceIdeal.PRead.val_main_v36 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · have hreal : ∀ c : Dev Cert.KernelIdeal.nD, (∀ i, IsReal (Cert.KernelGrid.xarr m c i)) ∧ (∀ i, IsReal (Cert.KernelGrid.aarr m c i)) :=
      fun c => ⟨fun i => by
          show IsReal (Cert.KernelIdeal.Gen.V m c Cert.KernelIdeal.main_arg0 i)
          rw [Cert.KernelIdeal.Gen.V_main_arg0 m c]; exact (hr c).1 i,
        fun i => by
          show IsReal (Cert.KernelIdeal.Gen.V m c Cert.KernelIdeal.main_v0 i)
          rw [Cert.KernelGrid.keys_eq m c]; exact hkeys c i⟩
    refine (θ_run Cert.KernelIdeal.defs _ _).mono (fun r h c => ⟨(h c).1.trans ?_, (h c).2⟩) (Cert.KernelValue.run m ρ hreal)
    show avg (Cert.KernelIdeal.Gen.V m c Cert.KernelIdeal.main_arg0) (Cert.KernelIdeal.Gen.V m c Cert.KernelIdeal.main_v0)
      (Cert.KernelIdeal.Gen.V m c Cert.KernelIdeal.main_v13) = _
    rw [Cert.KernelIdeal.Gen.V_main_arg0 m c, Cert.KernelGrid.keys_eq m c, Cert.KernelGrid.scores_eq m c]
  · refine (θ_run Cert.ReferenceIdeal.defs _ _).mono (fun r h c => ⟨(h c).1.trans ?_, (h c).2⟩)
      (Cert.ReferenceIdeal.PValue.run (F := Ideal) m' ρ')
    rw [Cert.ReferenceIdeal.PRead.val_main_v41_eq, (hagree c).1, (hagree c).2.1, (hagree c).2.2.1, (hagree c).2.2.2.1,
      (hagree c).2.2.2.2]
    exact Cert.RefAverage.ref_eq _ _ _ _ _ (hr c).1 (hkeys c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
